-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x1024x1024 .f32) (main_arg1 : FVec F S1024x1024 .f32) (main_arg2 : FVec F S1024 .f32) (main_arg3 : FVec F S1024x128 .f32) (main_arg4 : FVec F S128 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x1024 : Shape := ⟨2, ![1, 1024]⟩
abbrev S1x128 : Shape := ⟨2, ![1, 128]⟩
abbrev S16x1024x128 : Shape := ⟨3, ![16, 1024, 128]⟩
abbrev S1x1024x1024 : Shape := ⟨3, ![1, 1024, 1024]⟩
abbrev S1x1024x128 : Shape := ⟨3, ![1, 1024, 128]⟩
abbrev S1x512x128 : Shape := ⟨3, ![1, 512, 128]⟩
abbrev S1x512x1024 : Shape := ⟨3, ![1, 512, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024, .f32⟩
  | .hbm, ⟨3, _⟩ => ⟨S1024x128, .f32⟩
  | .hbm, ⟨4, _⟩ => ⟨S128, .f32⟩
  | .hbm, ⟨5, _⟩ => ⟨S1024x1024, .bf16⟩
  | .hbm, ⟨6, _⟩ => ⟨S1024x128, .bf16⟩
  | .hbm, ⟨7, _⟩ => ⟨S1x1024, .f32⟩
  | .hbm, ⟨8, _⟩ => ⟨S1x128, .f32⟩
  | .hbm, ⟨9, _⟩ => ⟨S16x1024x128, .f32⟩
  | .hbm, ⟨10, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x128, .bf16⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | .local _ .vmem, ⟨8, _⟩ => ⟨S1x512x128, .f32⟩
  | .local _ .vmem, ⟨9, _⟩ => ⟨S1x512x128, .f32⟩
  | .local _ .vmem, ⟨10, _⟩ => ⟨S1x1024x128, .f32⟩
  | .local _ .vmem, ⟨11, _⟩ => ⟨S1x1024x128, .f32⟩
  | .local _ .vmem, ⟨12, _⟩ => ⟨S1x512x1024, .f32⟩
  | .local _ .vmem, ⟨13, _⟩ => ⟨S1x512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S1024_S1x1024 : S1024.ShapeCasts S1x1024
  shapeCasts_S128_S1x128 : S128.ShapeCasts S1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  reduces_S1024x128_S1024 : S1024x128.Reduces [1] S1024
  shapeCasts_S1024_S1024x1 : S1024.ShapeCasts S1024x1
  transposes_S1024x1_p1_0_S1x1024 : S1024x1.Transposes [1, 0] S1x1024
  broadcasts_S512x1_S512x1024 : S512x1.Broadcasts S512x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S16x1024x128.size a
  hwx0_5 : ∀ i : grid0.Coords, EltTy.bits .f32 = 32 ∨ (Rect.block (s := S16x1024x128) S1x1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S16x1024x128.size a
  hwx1_0 : ∀ i : grid1.Coords, EltTy.bits .f32 = 32 ∨ (Rect.block (s := S16x1024x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S16x1024x128.size a
  hwx1_1 : ∀ i : grid1.Coords, EltTy.bits .f32 = 32 ∨ (Rect.block (s := S16x1024x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S16x1024x1024.size a
  hwx1_2 : ∀ i : grid1.Coords, EltTy.bits .f32 = 32 ∨ (Rect.block (s := S16x1024x1024) S1x512x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x1x1024 : Shape := ⟨3, ![1, 1, 1024]⟩
abbrev S_ : Shape := ⟨0, ![]⟩
abbrev S16x1024x128 : Shape := ⟨3, ![16, 1024, 128]⟩
abbrev S1x1x128 : Shape := ⟨3, ![1, 1, 128]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x1024, .f32⟩
  | .hbm, ⟨2, _⟩ => ⟨S1024, .f32⟩
  | .hbm, ⟨3, _⟩ => ⟨S1024x128, .f32⟩
  | .hbm, ⟨4, _⟩ => ⟨S128, .f32⟩
  | .hbm, ⟨5, _⟩ => ⟨S16x1024x1024, .f32⟩
  | .hbm, ⟨6, _⟩ => ⟨S1x1x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S16x1024x128, .f32⟩
  | .hbm, ⟨13, _⟩ => ⟨S1x1x128, .f32⟩
  | .hbm, ⟨14, _⟩ => ⟨S16x1024x128, .f32⟩
  | .hbm, ⟨15, _⟩ => ⟨S16x1024x128, .f32⟩
  | .hbm, ⟨16, _⟩ => ⟨S_, .f32⟩
  | .hbm, ⟨17, _⟩ => ⟨S16x1024x128, .f32⟩
  | .hbm, ⟨18, _⟩ => ⟨S16x1024x128, .f32⟩
  | .hbm, ⟨19, _⟩ => ⟨S16x1024x128, .f32⟩
  | .hbm, ⟨20, _⟩ => ⟨S_, .f32⟩
  | .hbm, ⟨21, _⟩ => ⟨S16x1024, .f32⟩
  | .hbm, ⟨22, _⟩ => ⟨S16x1024x1024, .f32⟩
  | .hbm, ⟨23, _⟩ => ⟨S16x1024x1, .f32⟩
  | .hbm, ⟨24, _⟩ => ⟨S16x1x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S16x1024x1024, .f32⟩
  | .hbm, ⟨34, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  reducesTo_S16x1024x128_S16x1024_d2 : S16x1024x128.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  dot_S16x1024x1024_S1024x1024_S16x1024x1024_2_0_01_1_n_n_wf : DotDims.WF S16x1024x1024 S1024x1024 S16x1024x1024 [2] [0] [0, 1] [1] [] []
  dot_S16x1024x1024_S1024x128_S16x1024x128_2_0_01_1_n_n_wf : DotDims.WF S16x1024x1024 S1024x128 S16x1024x128 [2] [0] [0, 1] [1] [] []
  dot_S16x1024x128_S16x1024x128_S16x1024x1024_2_2_1_1_0_0_wf : DotDims.WF S16x1024x128 S16x1024x128 S16x1024x1024 [2] [2] [1] [1] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S1024x128_S16x1024x128_2_0_01_1_n_n : DotDims S16x1024x1024 S1024x128 S16x1024x128 where
  lhsContracting := [2]
  rhsContracting := [0]
  lhsNonContracting := [0, 1]
  rhsNonContracting := [1]
  lhsBatch := []
  rhsBatch := []
  wf := dot_S16x1024x1024_S1024x128_S16x1024x128_2_0_01_1_n_n_wf
def dot_S16x1024x128_S16x1024x128_S16x1024x1024_2_2_1_1_0_0 : DotDims S16x1024x128 S16x1024x128 S16x1024x1024 where
  lhsContracting := [2]
  rhsContracting := [2]
  lhsNonContracting := [1]
  rhsNonContracting := [1]
  lhsBatch := [0]
  rhsBatch := [0]
  wf := dot_S16x1024x128_S16x1024x128_S16x1024x1024_2_2_1_1_0_0_wf

class Facts : Prop extends Facts₀ where

variable [Facts]
-- ==== Proof.Body0.lean ====
/-
  The projection kernel's grid (pipeline 0 of the program) as the pipeline library sees it, at a PARAMETER `V`: the
  contents of the core's buffers when the region is entered.

  At grid point `t` (one sentence of the batch) the body finds in each input window's staging buffer that window's block of
  its array — the sentence's rows for the batch, and for the two weight matrices and the two bias rows, whose block index
  never moves, the whole array, fetched once and still there — and leaves in the output window's staging buffer ONE
  whole-block store: the two layers applied to those blocks. Nothing is carried from point to point, nothing is owed, no
  semaphore of the kernel's own is touched. So the proof data are: the arrays as found; after the body each input's buffer
  unchanged and the output's at the store's value; the invariant the scoped buffers no window stages and the generator
  register, untouched.
-/
import proofs.«111988_j34505767256461_1_alg».proof.Proof.Gen.KernelIdeal.Launch
import proofs.«111988_j34505767256461_1_alg».proof.Proof.Gen.KernelIdeal.Skeleton
import proofs.«111988_j34505767256461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved, and the body left the previous point's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S1x1024x1024 := Rect.unit (s := S1x1024x1024) ![0, 0, 0] S1x1024x1024.size inb_S1x1024x1024_S1x1024x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1024x128 := Rect.unit (s := S1024x128) ![0, 0] S1024x128.size inb_S1024x128_S1024x128_0_0
abbrev r0_4 : Rect S1x128 := Rect.unit (s := S1x128) ![0, 0] S1x128.size inb_S1x128_S1x128_0_0
abbrev r0_5 : Rect S1x1024x128 := Rect.unit (s := S1x1024x128) ![0, 0, 0] S1x1024x128.size inb_S1x1024x128_S1x1024x128_0_0_0

/-! ## What the body leaves in the output window's buffer -/

/-- The output's staging buffer after the body, from the input windows' blocks: its one store. -/
def out0_5 (x0 : Vec F S1x1024x1024 .f32) (x1 : Vec F S1024x1024 .bf16) (x2 : Vec F S1x1024 .f32) (x3 : Vec F S1024x128 .bf16)
    (x4 : Vec F S1x128 .f32) : Vec F S1x1024x128 .f32 :=
  View.canon [⟨r0_5, k0_pay1 (View.ld x0 r0_0) (View.ld x1 r0_1) (View.ld x2 r0_2) (View.ld x3 r0_3) (View.ld x4 r0_4)⟩]

/-- The store is of the whole buffer, so it covers it. -/
theorem cover0_5 (p0 : Vec F S1x1024x128 .f32) (y : S1x1024x128.Idx) :
    ∃ pc ∈ ([⟨r0_5, p0⟩] : List (View.Piece (Elt F) S1x1024x128 .f32)), y ∈ pc.1.set :=
  View.cover_of_tiled [⟨r0_5, p0⟩] S1x1024x128.size (by rfl) y

/-! ## The body's triple -/

set_option maxHeartbeats 1000000 in
/-- The kernel body on whole staging memrefs, the inputs' at read contents `xW` and the output's at anything, runs to the
    continuation holding the inputs' as they were and the output's at `out0_5` of the inputs'. -/
theorem sound_kernel0 (c : Dev nD) (E : Set ℕ) (i : grid0.Coords)
    (arg1 : Memref sig .tc .vmem S1x1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S1x1024x128 .f32) (harg6 : arg6.IsWhole)
    (x0 : Vec F S1x1024x1024 .f32) (x1 : Vec F S1024x1024 .bf16) (x2 : Vec F S1x1024 .f32) (x3 : Vec F S1024x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each input's
    buffer at its block and the output's at `out0_5` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The distance kernel's grid (pipeline 1 of the program) as the pipeline library sees it, at a PARAMETER `V`: the contents
  of the core's buffers when the region is entered.

  At grid point `t = (b, i)` the body finds a tile of 512 rows of sentence `b` in the first window's staging buffer and ALL
  1024 rows of the sentence in the second's — both windows read the SAME array, the projected rows —, and leaves in the
  output window's buffer one whole-block store: the tile's distances to every row. The second window's block index moves
  only with `b`, so at odd points it is not fetched and still holds the sentence. Since two input windows are on one
  array, the array's full share is dealt in two halves, one to each; nobody stores into it.
-/
import proofs.«111988_j34505767256461_1_alg».proof.Proof.Gen.KernelIdeal.Launch
import proofs.«111988_j34505767256461_1_alg».proof.Proof.Gen.KernelIdeal.Skeleton
import proofs.«111988_j34505767256461_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both loads and the one store take a whole buffer -/

abbrev r1_0 : Rect S1x512x128 := Rect.unit (s := S1x512x128) ![0, 0, 0] S1x512x128.size inb_S1x512x128_S1x512x128_0_0_0
abbrev r1_1 : Rect S1x1024x128 := Rect.unit (s := S1x1024x128) ![0, 0, 0] S1x1024x128.size inb_S1x1024x128_S1x1024x128_0_0_0
abbrev r1_2 : Rect S1x512x1024 := Rect.unit (s := S1x512x1024) ![0, 0, 0] S1x512x1024.size inb_S1x512x1024_S1x512x1024_0_0_0

/-! ## What the body leaves in the output window's buffer -/

/-- The output's staging buffer after the body, from the two input blocks: its one store. -/
def out1_2 (x0 : Vec F S1x512x128 .f32) (x1 : Vec F S1x1024x128 .f32) : Vec F S1x512x1024 .f32 :=
  View.canon [⟨r1_2, k1_pay1 (View.ld x0 r1_0) (View.ld x1 r1_1)⟩]

/-- The store is of the whole buffer, so it covers it. -/
theorem cover1_2 (p0 : Vec F S1x512x1024 .f32) (y : S1x512x1024.Idx) :
    ∃ pc ∈ ([⟨r1_2, p0⟩] : List (View.Piece (Elt F) S1x512x1024 .f32)), y ∈ pc.1.set :=
  View.cover_of_tiled [⟨r1_2, p0⟩] S1x512x1024.size (by rfl) y

/-! ## The body's triple -/

set_option maxHeartbeats 1000000 in
/-- The kernel body on whole staging memrefs, the inputs' at read contents and the output's at anything, runs to the
    continuation holding the inputs' as they were and the output's at `out1_2` of the inputs'. -/
theorem sound_kernel1 (c : Dev nD) (E : Set ℕ) (i : grid1.Coords)
    (arg2 : Memref sig .tc .vmem S1x512x128 .f32) (harg2 : arg2.IsWhole) (arg3 : Memref sig .tc .vmem S1x1024x128 .f32) (harg3 : arg3.IsWhole)
    (arg4 : Memref sig .tc .vmem S1x512x1024 .f32) (harg4 : arg4.IsWhole)
    (x0 : Vec F S1x512x128 .f32) (x1 : Vec F S1x1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__dist_kernel i arg2 harg2 arg3 harg3 arg4 harg4) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each input's
    buffer at its block and the output's at `out1_2` of the two blocks; the invariant the scoped rest and the generator
    register; nothing owed; the shared array's share in two halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares: a half of the shared array to each input window, the output's array whole. -/
theorem share1_0 (c : Dev nD) : (dat1 V c).share 0 = fullShare.left := by unfold Dat.share; rw [if_neg (by decide)]; dsimp only [dat1]
theorem share1_1 (c : Dev nD) : (dat1 V c).share 1 = fullShare.right := by unfold Dat.share; rw [if_neg (by decide)]; dsimp only [dat1]
theorem share1_2 (c : Dev nD) : (dat1 V c).share 2 = fullShare := by unfold Dat.share; rw [if_pos (by decide)]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program from the launch to the return: the four host operations that prepare the weights and biases, the
  projection kernel's region, the distance kernel's region.

  Between two items a core holds every unscoped buffer at a known valuation: the launch contents, then those after the host
  operations, then with the projected rows where the first region's write-backs leave them, then with the distances where
  the second region's leave them. Each region takes its windows' arrays out of that valuation at its entry and puts them
  back at its exit. The second region reads the projected rows through TWO windows: at its entry the array's full share is
  cut in two halves, one per window, and at its exit the halves — still at the contents they were lent at, since nobody can
  store through a half — are joined again. The conclusion names what the result buffer holds at the end and says that
  every argument is as launched.
-/
import proofs.«111988_j34505767256461_1_alg».proof.Proof.Body0
import proofs.«111988_j34505767256461_1_alg».proof.Proof.Body1
import proofs.«111988_j34505767256461_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch, and after the host operations (the first region's entry). -/
abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- What the second region's write-backs leave in the result buffer. -/
abbrev result (c : Dev nD) : Buf (Elt F) ((c : Thread nD τ).loc main_v5) := (dat1 (E2 m) c).arrAt 2 cfg1.N

/-- At the second region's exit: the result buffer at that, every other buffer as entered. -/
def W3 (c : Dev nD) : Valuation τ sig (Elt F) := Function.update (W2 m c) main_v5 (result m c)
abbrev E3 : (c : Dev nD) → (b : Ref sig .tc) → Buf (Elt F) ((c : Thread nD τ).loc b) := fun c b => W3 m c b
theorem W3_result (c : Dev nD) : W3 m c (Proc.devRef .tc main_v5) = result m c := by
  unfold W3; exact Function.update_self ..
theorem W3_of_ne (c : Dev nD) (b : Ref sig .tc) (hb : b ≠ main_v5) : W3 m c (Proc.devRef .tc b) = W2 m c (Proc.devRef .tc b) := by
  unfold W3; exact Function.update_of_ne (StableHlo.devRef_ne_of_ne hb) ..

/-! ### The arguments end as launched -/

theorem W1_of (c : Dev nD) (r : Ref sig .tc) (h : r ∉ hostOps0_W) : E1 m c r = m ((c : Thread nD τ).loc r) :=
  StableHlo.after_of_writes_sub hostOps0 _ hostOps0_writes h

theorem W3_main_arg0 (c : Dev nD) : E3 m c main_arg0 = m ((c : Thread nD τ).loc main_arg0) :=
  (W3_of_ne m c main_arg0 (by decide)).trans <| (W2_arr m c 0).trans <|
    ((dat0 (E1 m) c).arrAt_in 0 rfl _).trans <| (A_eq0 (E1 m) c 0).trans (W1_of m c main_arg0 (by decide))
theorem W3_main_arg1 (c : Dev nD) : E3 m c main_arg1 = m ((c : Thread nD τ).loc main_arg1) :=
  (W3_of_ne m c main_arg1 (by decide)).trans <| (W2_of_ne m c main_arg1 (by decide)).trans (W1_of m c main_arg1 (by decide))
theorem W3_main_arg2 (c : Dev nD) : E3 m c main_arg2 = m ((c : Thread nD τ).loc main_arg2) :=
  (W3_of_ne m c main_arg2 (by decide)).trans <| (W2_of_ne m c main_arg2 (by decide)).trans (W1_of m c main_arg2 (by decide))
theorem W3_main_arg3 (c : Dev nD) : E3 m c main_arg3 = m ((c : Thread nD τ).loc main_arg3) :=
  (W3_of_ne m c main_arg3 (by decide)).trans <| (W2_of_ne m c main_arg3 (by decide)).trans (W1_of m c main_arg3 (by decide))
theorem W3_main_arg4 (c : Dev nD) : E3 m c main_arg4 = m ((c : Thread nD τ).loc main_arg4) :=
  (W3_of_ne m c main_arg4 (by decide)).trans <| (W2_of_ne m c main_arg4 (by decide)).trans (W1_of m c main_arg4 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host operations as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The second region's arrays: one array read through two windows -/

section Shared
variable (V : (c : Dev nD) → (b : Ref sig .tc) → Buf (Elt F) ((c : Thread nD τ).loc b))

/-- The distinct buffers behind the second region's arrays are the projected rows' and the result's. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v5) ↦{fullShare} X main_v5)) := by
  unfold Pipeline.arrBufs
  exact bigSep_eq_bigSepL_of_eq [main_v4, main_v5] (by decide) (by decide) _

/-- The second region's `arrays`, window by window: a half of the projected rows' share each, the result's whole. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right} Fn 1)
          ∗ (((c : Thread nD τ).loc main_v5) ↦{fullShare} Fn 2)) := by
  unfold Dat.arrays
  rw [bigSep_W1, (arr_whole1 0).set_eq_univ, (arr_whole1 2).set_eq_univ, share1_0, share1_1, share1_2]

/-- ENTRY: the core's unscoped buffers at `V` give the second region's arrays at their entry contents — the projected
    rows' full share cut in two — and the rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs 1 winFacts₀1.arr_unscoped c (V c), arrBufs1_eq, arrays1_eq]
  refine (sep_mono (sep_mono (pointsTo_share (PosShare.mem_left_op_right fullShare)).1 .rfl) .rfl).trans ?_
  iintro ⟨⟨⟨Hl, Hr⟩, H5⟩, Hrest⟩
  isplitr [Hrest]
  · isplitl [Hl]; · iexact Hl
    isplitl [Hr]; · iexact Hr
    iexact H5
  iexact Hrest

/-- EXIT: the arrays at contents `Fn` — the two halves at ONE contents — and the rest at `V` are the core's unscoped
    buffers at any valuation `V'` that has the arrays' buffers at those contents and agrees with `V` off them. -/
theorem unscopedBufs_of_arrays1 (c : Dev nD) (V' : (b : Ref sig .tc) → Buf (Elt F) ((c : Thread nD τ).loc b))
    (Fn : (w : Fin cfg1.W) → Buf (Elt F) ((cfg1.win w).arr.view.loc (c : Thread nD τ)))
    (h0 : Fn 0 = V' main_v4) (h1 : Fn 1 = V' main_v4) (h2 : Fn 2 = V' main_v5)
    (hrest : ∀ b, b ∉ Finset.univ.image (Pipeline.arrRef spec1) → V' b = V c b) :
    iprop((dat1 V c).arrays Fn ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec1 c V' ∗ Pipeline.unscopedRest spec1 c V')
    from Pipeline.unscopedBufs_split₀ cfgs 1 winFacts₀1.arr_unscoped c V', arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hr, H5⟩, Hrest⟩
  isplitr [Hrest]
  · isplitr [H5]
    · iapply (pointsTo_share (PosShare.mem_left_op_right fullShare)).2
      isplitl [Hl]; · iexact Hl
      iexact Hr
    iexact H5
  iexact Hrest

end Shared

/-! ## The regions as segments -/

set_option backward.isDefEq.respectTransparency.types false in
/-- The projection kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance kernel's region: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E2 m) c (E3 m c) ((dat1 (E2 m) c).arrAt · cfg1.N)
      (((dat1 (E2 m) c).arrAt_in 0 rfl _).trans ((A_eq1 (E2 m) c 0).trans (W3_of_ne m c main_v4 (by decide)).symm))
      (((dat1 (E2 m) c).arrAt_in 1 rfl _).trans ((A_eq1 (E2 m) c 1).trans (W3_of_ne m c main_v4 (by decide)).symm))
      (W3_result m c).symm
      (fun b hb => W3_of_ne m c b fun e => hb (e ▸ Finset.mem_image.mpr ⟨2, Finset.mem_univ _, rfl⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting;
    the result buffer ends at what the second region's write-backs leave, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_result m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c)⟩)

end Cert.KernelIdeal.Hand

end
-- ==== Proof.KBody0.lean ====
/-
  The projection kernel's grid (pipeline 0 of the program) as the pipeline library sees it, at a PARAMETER `V`: the
  contents of the core's buffers when the region is entered.

  At grid point `t` (one sentence of the batch) the body finds in each input window's staging buffer that window's block of
  its array — the sentence's rows for the batch, and for the two weight matrices and the two bias rows, whose block index
  never moves, the whole array, fetched once and still there — and leaves in the output window's staging buffer ONE
  whole-block store: the two layers applied to those blocks. Nothing is carried from point to point, nothing is owed, no
  semaphore of the kernel's own is touched. So the proof data are: the arrays as found; after the body each input's buffer
  unchanged and the output's at the store's value; the invariant the scoped buffers no window stages and the generator
  register, untouched.
-/
import proofs.«111988_j34505767256461_1_alg».proof.Proof.Gen.Kernel.Launch
import proofs.«111988_j34505767256461_1_alg».proof.Proof.Gen.Kernel.Skeleton
import proofs.«111988_j34505767256461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved, and the body left the previous point's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S1x1024x1024 := Rect.unit (s := S1x1024x1024) ![0, 0, 0] S1x1024x1024.size inb_S1x1024x1024_S1x1024x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1024x128 := Rect.unit (s := S1024x128) ![0, 0] S1024x128.size inb_S1024x128_S1024x128_0_0
abbrev r0_4 : Rect S1x128 := Rect.unit (s := S1x128) ![0, 0] S1x128.size inb_S1x128_S1x128_0_0
abbrev r0_5 : Rect S1x1024x128 := Rect.unit (s := S1x1024x128) ![0, 0, 0] S1x1024x128.size inb_S1x1024x128_S1x1024x128_0_0_0

/-! ## What the body leaves in the output window's buffer -/

/-- The output's staging buffer after the body, from the input windows' blocks: its one store. -/
def out0_5 (x0 : Vec F S1x1024x1024 .f32) (x1 : Vec F S1024x1024 .bf16) (x2 : Vec F S1x1024 .f32) (x3 : Vec F S1024x128 .bf16)
    (x4 : Vec F S1x128 .f32) : Vec F S1x1024x128 .f32 :=
  View.canon [⟨r0_5, k0_pay1 (View.ld x0 r0_0) (View.ld x1 r0_1) (View.ld x2 r0_2) (View.ld x3 r0_3) (View.ld x4 r0_4)⟩]

/-- The store is of the whole buffer, so it covers it. -/
theorem cover0_5 (p0 : Vec F S1x1024x128 .f32) (y : S1x1024x128.Idx) :
    ∃ pc ∈ ([⟨r0_5, p0⟩] : List (View.Piece (Elt F) S1x1024x128 .f32)), y ∈ pc.1.set :=
  View.cover_of_tiled [⟨r0_5, p0⟩] S1x1024x128.size (by rfl) y

/-! ## The body's triple -/

set_option maxHeartbeats 1000000 in
/-- The kernel body on whole staging memrefs, the inputs' at read contents `xW` and the output's at anything, runs to the
    continuation holding the inputs' as they were and the output's at `out0_5` of the inputs'. -/
theorem sound_kernel0 (c : Dev nD) (E : Set ℕ) (i : grid0.Coords)
    (arg1 : Memref sig .tc .vmem S1x1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S1x1024x128 .f32) (harg6 : arg6.IsWhole)
    (x0 : Vec F S1x1024x1024 .f32) (x1 : Vec F S1024x1024 .bf16) (x2 : Vec F S1x1024 .f32) (x3 : Vec F S1024x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__project_kernel i arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each input's
    buffer at its block and the output's at `out0_5` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The distance kernel's grid (pipeline 1 of the program) as the pipeline library sees it, at a PARAMETER `V`: the contents
  of the core's buffers when the region is entered.

  At grid point `t = (b, i)` the body finds a tile of 512 rows of sentence `b` in the first window's staging buffer and ALL
  1024 rows of the sentence in the second's — both windows read the SAME array, the projected rows —, and leaves in the
  output window's buffer one whole-block store: the tile's distances to every row. The second window's block index moves
  only with `b`, so at odd points it is not fetched and still holds the sentence. Since two input windows are on one
  array, the array's full share is dealt in two halves, one to each; nobody stores into it.
-/
import proofs.«111988_j34505767256461_1_alg».proof.Proof.Gen.Kernel.Launch
import proofs.«111988_j34505767256461_1_alg».proof.Proof.Gen.Kernel.Skeleton
import proofs.«111988_j34505767256461_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both loads and the one store take a whole buffer -/

abbrev r1_0 : Rect S1x512x128 := Rect.unit (s := S1x512x128) ![0, 0, 0] S1x512x128.size inb_S1x512x128_S1x512x128_0_0_0
abbrev r1_1 : Rect S1x1024x128 := Rect.unit (s := S1x1024x128) ![0, 0, 0] S1x1024x128.size inb_S1x1024x128_S1x1024x128_0_0_0
abbrev r1_2 : Rect S1x512x1024 := Rect.unit (s := S1x512x1024) ![0, 0, 0] S1x512x1024.size inb_S1x512x1024_S1x512x1024_0_0_0

/-! ## What the body leaves in the output window's buffer -/

/-- The output's staging buffer after the body, from the two input blocks: its one store. -/
def out1_2 (x0 : Vec F S1x512x128 .f32) (x1 : Vec F S1x1024x128 .f32) : Vec F S1x512x1024 .f32 :=
  View.canon [⟨r1_2, k1_pay1 (View.ld x0 r1_0) (View.ld x1 r1_1)⟩]

/-- The store is of the whole buffer, so it covers it. -/
theorem cover1_2 (p0 : Vec F S1x512x1024 .f32) (y : S1x512x1024.Idx) :
    ∃ pc ∈ ([⟨r1_2, p0⟩] : List (View.Piece (Elt F) S1x512x1024 .f32)), y ∈ pc.1.set :=
  View.cover_of_tiled [⟨r1_2, p0⟩] S1x512x1024.size (by rfl) y

/-! ## The body's triple -/

set_option maxHeartbeats 1000000 in
/-- The kernel body on whole staging memrefs, the inputs' at read contents and the output's at anything, runs to the
    continuation holding the inputs' as they were and the output's at `out1_2` of the inputs'. -/
theorem sound_kernel1 (c : Dev nD) (E : Set ℕ) (i : grid1.Coords)
    (arg2 : Memref sig .tc .vmem S1x512x128 .f32) (harg2 : arg2.IsWhole) (arg3 : Memref sig .tc .vmem S1x1024x128 .f32) (harg3 : arg3.IsWhole)
    (arg4 : Memref sig .tc .vmem S1x512x1024 .f32) (harg4 : arg4.IsWhole)
    (x0 : Vec F S1x512x128 .f32) (x1 : Vec F S1x1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__dist_kernel i arg2 harg2 arg3 harg3 arg4 harg4) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each input's
    buffer at its block and the output's at `out1_2` of the two blocks; the invariant the scoped rest and the generator
    register; nothing owed; the shared array's share in two halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares: a half of the shared array to each input window, the output's array whole. -/
theorem share1_0 (c : Dev nD) : (dat1 V c).share 0 = fullShare.left := by unfold Dat.share; rw [if_neg (by decide)]; dsimp only [dat1]
theorem share1_1 (c : Dev nD) : (dat1 V c).share 1 = fullShare.right := by unfold Dat.share; rw [if_neg (by decide)]; dsimp only [dat1]
theorem share1_2 (c : Dev nD) : (dat1 V c).share 2 = fullShare := by unfold Dat.share; rw [if_pos (by decide)]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program from the launch to the return: the four host operations that prepare the weights and biases, the
  projection kernel's region, the distance kernel's region.

  Between two items a core holds every unscoped buffer at a known valuation: the launch contents, then those after the host
  operations, then with the projected rows where the first region's write-backs leave them, then with the distances where
  the second region's leave them. Each region takes its windows' arrays out of that valuation at its entry and puts them
  back at its exit. The second region reads the projected rows through TWO windows: at its entry the array's full share is
  cut in two halves, one per window, and at its exit the halves — still at the contents they were lent at, since nobody can
  store through a half — are joined again. The conclusion names what the result buffer holds at the end and says that
  every argument is as launched.
-/
import proofs.«111988_j34505767256461_1_alg».proof.Proof.KBody0
import proofs.«111988_j34505767256461_1_alg».proof.Proof.KBody1
import proofs.«111988_j34505767256461_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch, and after the host operations (the first region's entry). -/
abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- What the second region's write-backs leave in the result buffer. -/
abbrev result (c : Dev nD) : Buf (Elt F) ((c : Thread nD τ).loc main_v5) := (dat1 (E2 m) c).arrAt 2 cfg1.N

/-- At the second region's exit: the result buffer at that, every other buffer as entered. -/
def W3 (c : Dev nD) : Valuation τ sig (Elt F) := Function.update (W2 m c) main_v5 (result m c)
abbrev E3 : (c : Dev nD) → (b : Ref sig .tc) → Buf (Elt F) ((c : Thread nD τ).loc b) := fun c b => W3 m c b
theorem W3_result (c : Dev nD) : W3 m c (Proc.devRef .tc main_v5) = result m c := by
  unfold W3; exact Function.update_self ..
theorem W3_of_ne (c : Dev nD) (b : Ref sig .tc) (hb : b ≠ main_v5) : W3 m c (Proc.devRef .tc b) = W2 m c (Proc.devRef .tc b) := by
  unfold W3; exact Function.update_of_ne (StableHlo.devRef_ne_of_ne hb) ..

/-! ### The arguments end as launched -/

theorem W1_of (c : Dev nD) (r : Ref sig .tc) (h : r ∉ hostOps0_W) : E1 m c r = m ((c : Thread nD τ).loc r) :=
  StableHlo.after_of_writes_sub hostOps0 _ hostOps0_writes h

theorem W3_main_arg0 (c : Dev nD) : E3 m c main_arg0 = m ((c : Thread nD τ).loc main_arg0) :=
  (W3_of_ne m c main_arg0 (by decide)).trans <| (W2_arr m c 0).trans <|
    ((dat0 (E1 m) c).arrAt_in 0 rfl _).trans <| (A_eq0 (E1 m) c 0).trans (W1_of m c main_arg0 (by decide))
theorem W3_main_arg1 (c : Dev nD) : E3 m c main_arg1 = m ((c : Thread nD τ).loc main_arg1) :=
  (W3_of_ne m c main_arg1 (by decide)).trans <| (W2_of_ne m c main_arg1 (by decide)).trans (W1_of m c main_arg1 (by decide))
theorem W3_main_arg2 (c : Dev nD) : E3 m c main_arg2 = m ((c : Thread nD τ).loc main_arg2) :=
  (W3_of_ne m c main_arg2 (by decide)).trans <| (W2_of_ne m c main_arg2 (by decide)).trans (W1_of m c main_arg2 (by decide))
theorem W3_main_arg3 (c : Dev nD) : E3 m c main_arg3 = m ((c : Thread nD τ).loc main_arg3) :=
  (W3_of_ne m c main_arg3 (by decide)).trans <| (W2_of_ne m c main_arg3 (by decide)).trans (W1_of m c main_arg3 (by decide))
theorem W3_main_arg4 (c : Dev nD) : E3 m c main_arg4 = m ((c : Thread nD τ).loc main_arg4) :=
  (W3_of_ne m c main_arg4 (by decide)).trans <| (W2_of_ne m c main_arg4 (by decide)).trans (W1_of m c main_arg4 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host operations as a segment over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The second region's arrays: one array read through two windows -/

section Shared
variable (V : (c : Dev nD) → (b : Ref sig .tc) → Buf (Elt F) ((c : Thread nD τ).loc b))

/-- The distinct buffers behind the second region's arrays are the projected rows' and the result's. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v5) ↦{fullShare} X main_v5)) := by
  unfold Pipeline.arrBufs
  exact bigSep_eq_bigSepL_of_eq [main_v4, main_v5] (by decide) (by decide) _

/-- The second region's `arrays`, window by window: a half of the projected rows' share each, the result's whole. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v4) ↦{fullShare.left} Fn 0) ∗ (((c : Thread nD τ).loc main_v4) ↦{fullShare.right} Fn 1)
          ∗ (((c : Thread nD τ).loc main_v5) ↦{fullShare} Fn 2)) := by
  unfold Dat.arrays
  rw [bigSep_W1, (arr_whole1 0).set_eq_univ, (arr_whole1 2).set_eq_univ, share1_0, share1_1, share1_2]

/-- ENTRY: the core's unscoped buffers at `V` give the second region's arrays at their entry contents — the projected
    rows' full share cut in two — and the rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs 1 winFacts₀1.arr_unscoped c (V c), arrBufs1_eq, arrays1_eq]
  refine (sep_mono (sep_mono (pointsTo_share (PosShare.mem_left_op_right fullShare)).1 .rfl) .rfl).trans ?_
  iintro ⟨⟨⟨Hl, Hr⟩, H5⟩, Hrest⟩
  isplitr [Hrest]
  · isplitl [Hl]; · iexact Hl
    isplitl [Hr]; · iexact Hr
    iexact H5
  iexact Hrest

/-- EXIT: the arrays at contents `Fn` — the two halves at ONE contents — and the rest at `V` are the core's unscoped
    buffers at any valuation `V'` that has the arrays' buffers at those contents and agrees with `V` off them. -/
theorem unscopedBufs_of_arrays1 (c : Dev nD) (V' : (b : Ref sig .tc) → Buf (Elt F) ((c : Thread nD τ).loc b))
    (Fn : (w : Fin cfg1.W) → Buf (Elt F) ((cfg1.win w).arr.view.loc (c : Thread nD τ)))
    (h0 : Fn 0 = V' main_v4) (h1 : Fn 1 = V' main_v4) (h2 : Fn 2 = V' main_v5)
    (hrest : ∀ b, b ∉ Finset.univ.image (Pipeline.arrRef spec1) → V' b = V c b) :
    iprop((dat1 V c).arrays Fn ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec1 c V' ∗ Pipeline.unscopedRest spec1 c V')
    from Pipeline.unscopedBufs_split₀ cfgs 1 winFacts₀1.arr_unscoped c V', arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hr, H5⟩, Hrest⟩
  isplitr [Hrest]
  · isplitr [H5]
    · iapply (pointsTo_share (PosShare.mem_left_op_right fullShare)).2
      isplitl [Hl]; · iexact Hl
      iexact Hr
    iexact H5
  iexact Hrest

end Shared

/-! ## The regions as segments -/

set_option backward.isDefEq.respectTransparency.types false in
/-- The projection kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance kernel's region: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E2 m) c (E3 m c) ((dat1 (E2 m) c).arrAt · cfg1.N)
      (((dat1 (E2 m) c).arrAt_in 0 rfl _).trans ((A_eq1 (E2 m) c 0).trans (W3_of_ne m c main_v4 (by decide)).symm))
      (((dat1 (E2 m) c).arrAt_in 1 rfl _).trans ((A_eq1 (E2 m) c 1).trans (W3_of_ne m c main_v4 (by decide)).symm))
      (W3_result m c).symm
      (fun b hb => W3_of_ne m c b fun e => hb (e ▸ Finset.mem_image.mpr ⟨2, Finset.mem_univ _, rfl⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting;
    the result buffer ends at what the second region's write-backs leave, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_result m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c)⟩)

end Cert.Kernel.Hand

end
-- ==== Proof.Spec.lean ====
/-
  What both programs compute, over the extended reals, index by index.

  Two dense layers with a clamp at zero take each row `x[b, l, :]` of the batch to a row `t[b, l, :]` of 128 numbers:
      h[b, l, j] = max (∑_d x[b, l, d] · W1[d, j] + b1[j]) 0,      t[b, l, r] = max (∑_j h[b, l, j] · W2[j, r] + b2[r]) 0.
  The result is the table of squared distances between the rows of one sentence `b`, by the polarisation form
      d[b, i, j] = max ((|t_i|² + |t_j|²) − 2 · ⟨t_i, t_j⟩) 0,      |t_i|² = ∑_r t[b, i, r]².
  The grouping `(|t_i|² + |t_j|²) − 2 · ⟨t_i, t_j⟩` is the one both programs use, so no law of the extended reals
  beyond the ones that hold at the infinities (a zero added on the left of a sum) is needed to join them.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Index types over literal extents. -/
abbrev I16x1024x1024 : Type := (⟨3, ![16, 1024, 1024]⟩ : Shape).Idx
abbrev I16x1024x128 : Type := (⟨3, ![16, 1024, 128]⟩ : Shape).Idx
abbrev I1024x1024 : Type := (⟨2, ![1024, 1024]⟩ : Shape).Idx
abbrev I1024x128 : Type := (⟨2, ![1024, 128]⟩ : Shape).Idx

/-- The first layer's output at row `(b, l)`, unit `j`. -/
def hidden (x : I16x1024x1024 → EReal) (w1 : I1024x1024 → EReal) (b1 : Fin 1024 → EReal)
    (b : Fin 16) (l : Fin 1024) (j : Fin 1024) : EReal :=
  max ((∑ d : Fin 1024, x (ix3 b l d) * w1 (ix2 d j)) + b1 j) 0

/-- The second layer's output: the row `t[b, l, :]` the distances are taken between. -/
def proj (x : I16x1024x1024 → EReal) (w1 : I1024x1024 → EReal) (b1 : Fin 1024 → EReal)
    (w2 : I1024x128 → EReal) (b2 : Fin 128 → EReal) (b : Fin 16) (l : Fin 1024) (r : Fin 128) : EReal :=
  max ((∑ j : Fin 1024, hidden x w1 b1 b l j * w2 (ix2 j r)) + b2 r) 0

/-- The projected rows as one array. -/
def projArr (x : I16x1024x1024 → EReal) (w1 : I1024x1024 → EReal) (b1 : Fin 1024 → EReal)
    (w2 : I1024x128 → EReal) (b2 : Fin 128 → EReal) : I16x1024x128 → EReal :=
  fun i => proj x w1 b1 w2 b2 ⟨(i 0).val, (i 0).isLt⟩ ⟨(i 1).val, (i 1).isLt⟩ ⟨(i 2).val, (i 2).isLt⟩

theorem projArr_apply (x : I16x1024x1024 → EReal) (w1 : I1024x1024 → EReal) (b1 : Fin 1024 → EReal)
    (w2 : I1024x128 → EReal) (b2 : Fin 128 → EReal) (b : Fin 16) (l : Fin 1024) (r : Fin 128) :
    projArr x w1 b1 w2 b2 (ix3 b l r) = proj x w1 b1 w2 b2 b l r := rfl

/-- The literal `2.0`, kept as its word: the same word on both sides is never evaluated. -/
def two : EReal := Ideal.ofBits .f32 0x40000000#32

/-- The squared norm of row `(b, l)` of an array of rows. -/
def sqn (t : I16x1024x128 → EReal) (b : Fin 16) (l : Fin 1024) : EReal :=
  ∑ r : Fin 128, t (ix3 b l r) * t (ix3 b l r)

/-- The inner product of rows `i` and `j` of sentence `b`. -/
def inner (t : I16x1024x128 → EReal) (b : Fin 16) (i j : Fin 1024) : EReal :=
  ∑ r : Fin 128, t (ix3 b i r) * t (ix3 b j r)

/-- The clamped squared distance between rows `i` and `j` of sentence `b`. -/
def dist (t : I16x1024x128 → EReal) (b : Fin 16) (i j : Fin 1024) : EReal :=
  max ((sqn t b i + sqn t b j) - two * inner t b i j) 0

/-- All pairwise distances as one array. -/
def distArr (t : I16x1024x128 → EReal) : I16x1024x1024 → EReal :=
  fun i => dist t ⟨(i 0).val, (i 0).isLt⟩ ⟨(i 1).val, (i 1).isLt⟩ ⟨(i 2).val, (i 2).isLt⟩

theorem distArr_apply (t : I16x1024x128 → EReal) (b : Fin 16) (i j : Fin 1024) :
    distArr t (ix3 b i j) = dist t b i j := rfl

/-- The whole computation: the arguments to the table of distances. -/
def G (x : I16x1024x1024 → EReal) (w1 : I1024x1024 → EReal) (b1 : Fin 1024 → EReal)
    (w2 : I1024x128 → EReal) (b2 : Fin 128 → EReal) : I16x1024x1024 → EReal :=
  distArr (projArr x w1 b1 w2 b2)

end Cert.Spec

end
-- ==== Proof.Pay0.lean ====
/-
  The projection kernel's stored block, read at an index: row `l` of the block is the two dense layers applied to
  row `l` of the input block.
-/
import proofs.«111988_j34505767256461_1_alg».proof.Proof.Gen.KernelIdeal.Skeleton
import proofs.«111988_j34505767256461_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The first product: the operands' indices, axis by axis

The product contracts the left operand's axis 1 with the right operand's axis 0; the left operand's axis 0 is the
result's row and the right operand's axis 1 the result's column. -/

/-- The left operand's row is the result's row. -/
theorem lhs_dense1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction position. -/
theorem lhs_dense1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction position. -/
theorem rhs_dense1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the result's column. -/
theorem rhs_dense1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The first product into a zero accumulator, read at `(p, q)`: the sum over the contraction position `k` of the left
operand at `(p, k)` times the right operand at `(k, q)`. -/
theorem dense1_apply (a : FVec Ideal S1024x1024 .bf16) (b : FVec Ideal S1024x1024 .bf16) (p : Fin 1024) (q : Fin 1024) :
    matmul (F := Ideal) dot_S1024x1024_S1024x1024_S1024x1024_1_0_0_1_n_n none a b (constant (F := Ideal) S1024x1024 .f32 0x00000000#32) (ix2 p q)
      = ∑ k : Fin 1024, a (ix2 p k) * b (ix2 k q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun c => Fin.ext (by
    match c with
    | ⟨0, _⟩ => exact lhs_dense1_0 _ _
    | ⟨1, _⟩ => exact (lhs_dense1_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun c => Fin.ext (by
    match c with
    | ⟨0, _⟩ => exact (rhs_dense1_0 _ _).trans hk
    | ⟨1, _⟩ => exact rhs_dense1_1 _ _)
  rw [el, er]

/-! ## The second product: the operands' indices, axis by axis

The product contracts the left operand's axis 1 with the right operand's axis 0; the left operand's axis 0 is the
result's row and the right operand's axis 1 the result's column. -/

/-- The left operand's row is the result's row. -/
theorem lhs_dense2_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The left operand's column is the contraction position. -/
theorem lhs_dense2_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row is the contraction position. -/
theorem rhs_dense2_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column is the result's column. -/
theorem rhs_dense2_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The second product into a zero accumulator, read at `(p, q)`: the sum over the contraction position `k` of the left
operand at `(p, k)` times the right operand at `(k, q)`. -/
theorem dense2_apply (a : FVec Ideal S1024x1024 .bf16) (b : FVec Ideal S1024x128 .bf16) (p : Fin 1024) (q : Fin 128) :
    matmul (F := Ideal) dot_S1024x1024_S1024x128_S1024x128_1_0_0_1_n_n none a b (constant (F := Ideal) S1024x128 .f32 0x00000000#32) (ix2 p q)
      = ∑ k : Fin 1024, a (ix2 p k) * b (ix2 k q) := by
  refine (Ideal.matmul_constant_zero_apply dot_S1024x1024_S1024x128_S1024x128_1_0_0_1_n_n none a b (ix2 p q)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun c => Fin.ext (by
    match c with
    | ⟨0, _⟩ => exact lhs_dense2_0 _ _
    | ⟨1, _⟩ => exact (lhs_dense2_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun c => Fin.ext (by
    match c with
    | ⟨0, _⟩ => exact (rhs_dense2_0 _ _).trans hk
    | ⟨1, _⟩ => exact rhs_dense2_1 _ _)
  rw [el, er]

/-! ## A bias added and the clamp at zero, read at an index -/

/-- A sum of two vectors clamped below by the zero splat reads, at an index, the larger of the elements' sum and `0`:
the zero word denotes the extended real `0`. -/
theorem clamp_apply {s : Shape} (m bias : FVec Ideal s .f32) (i : s.Idx) :
    maximumf (addf m bias) (broadcast s (Scalar.ofBits (F := Ideal) .f32 0x00000000#32)) i = max (m i + bias i) 0 := by
  show max (m i + bias i) (Ideal.ofBits .f32 0x00000000#32) = _
  rw [Ideal.ofBits_zero_f32]

/-! ## The stored block at `(0, l, r)` -/

theorem pay0_apply (x : Vec Ideal S1x1024x1024 .f32) (w1 : Vec Ideal S1024x1024 .bf16) (b1 : Vec Ideal S1x1024 .f32)
    (w2 : Vec Ideal S1024x128 .bf16) (b2 : Vec Ideal S1x128 .f32) (l : Fin 1024) (r : Fin 128) :
    k0_pay1 (F := Ideal) x w1 b1 w2 b2 (ix3 0 l r)
      = max ((∑ j : Fin 1024, max ((∑ d : Fin 1024, x (ix3 0 l d) * w1 (ix2 d j)) + b1 (ix2 0 j)) 0 * w2 (ix2 j r))
          + b2 (ix2 0 r)) 0 := by
  unfold k0_pay1
  -- the added unit axis is dropped, then the second layer's clamp and bias are read at `(l, r)`
  refine (shapeCast_ab_1ab_apply _ shapeCasts_S1024x128_S1x1024x128 0 l r).trans ?_
  refine (clamp_apply _ _ (ix2 l r)).trans ?_
  refine congrArg (fun t : EReal => max t 0) (congrArg₂ (fun s t : EReal => s + t) ?_ ?_)
  · -- the second product, term by term: its left factor is the first layer at `(l, j)`
    refine (dense2_apply _ _ l r).trans (Finset.sum_congr rfl fun j _ => congrArg₂ (fun s t : EReal => s * t) ?_ ?_)
    · refine (truncf_apply (ψ := .bf16) _ bitsLt_bf16_f32 (ix2 l j)).trans ?_
      refine (clamp_apply _ _ (ix2 l j)).trans ?_
      refine congrArg (fun t : EReal => max t 0) (congrArg₂ (fun s t : EReal => s + t) ?_ ?_)
      · -- the first product, term by term: the input block's row `l` against the weights' column `j`
        refine (dense1_apply _ _ l j).trans (Finset.sum_congr rfl fun d _ => congrArg₂ (fun s t : EReal => s * t) ?_ ?_)
        · exact (truncf_apply (ψ := .bf16) _ bitsLt_bf16_f32 (ix2 l d)).trans (shapeCast_1ab_ab_apply x _ l d)
        · exact congrFun (shapeCast_self w1 _) (ix2 d j)
      · -- the first bias: one row, the same for every `l`
        exact (broadcastTo_1b_ab_apply _ _ l j).trans (congrFun (shapeCast_self b1 _) (ix2 0 j))
    · exact congrFun (shapeCast_self w2 _) (ix2 j r)
  · -- the second bias
    exact (broadcastTo_1b_ab_apply _ _ l r).trans (congrFun (shapeCast_self b2 _) (ix2 0 r))

end Cert.KernelIdeal.Pay

end
-- ==== Proof.Final0.lean ====
/-
  The projected rows as ONE array: what the projection kernel's region leaves in its output array is the two dense layers
  applied to the arrays the region was entered with. Each grid point writes back one sentence's rows, the sentences tile
  the array, and the block a point writes is that sentence's block of one whole-array function.
-/
import proofs.«111988_j34505767256461_1_alg».proof.Proof.Body0
import proofs.«111988_j34505767256461_1_alg».proof.Proof.Pay0
import proofs.«111988_j34505767256461_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

namespace Final0

/-! ## The payload of one sentence's blocks is that sentence's rows of the whole-array function -/

/-- If the batch block is sentence `b` of the batch and the weight and bias blocks are the whole weight and bias arrays,
the stored block at `(0, l, r)` is the projected array at `(b, l, r)`. -/
theorem block_value (X : Cert.Spec.I16x1024x1024 → EReal) (W1 : Cert.Spec.I1024x1024 → EReal)
    (B1 : (⟨2, ![1, 1024]⟩ : Shape).Idx → EReal) (W2 : Cert.Spec.I1024x128 → EReal)
    (B2 : (⟨2, ![1, 128]⟩ : Shape).Idx → EReal) (b : Fin 16)
    (x0 : Vec Ideal S1x1024x1024 .f32) (x1 : Vec Ideal S1024x1024 .bf16) (x2 : Vec Ideal S1x1024 .f32)
    (x3 : Vec Ideal S1024x128 .bf16) (x4 : Vec Ideal S1x128 .f32)
    (h0 : ∀ l d : Fin 1024, x0 (ix3 0 l d) = X (ix3 b l d))
    (h1 : ∀ d j : Fin 1024, x1 (ix2 d j) = W1 (ix2 d j))
    (h2 : ∀ j : Fin 1024, x2 (ix2 0 j) = B1 (ix2 0 j))
    (h3 : ∀ (j : Fin 1024) (r : Fin 128), x3 (ix2 j r) = W2 (ix2 j r))
    (h4 : ∀ r : Fin 128, x4 (ix2 0 r) = B2 (ix2 0 r)) (l : Fin 1024) (r : Fin 128) :
    k0_pay1 (F := Ideal) x0 x1 x2 x3 x4 (ix3 0 l r)
      = Cert.Spec.projArr X W1 (fun j => B1 (ix2 0 j)) W2 (fun r => B2 (ix2 0 r)) (ix3 b l r) := by
  refine (Cert.KernelIdeal.Pay.pay0_apply x0 x1 x2 x3 x4 l r).trans ?_
  refine Eq.trans ?_ (Cert.Spec.projArr_apply X W1 (fun j => B1 (ix2 0 j)) W2 (fun r => B2 (ix2 0 r)) b l r).symm
  unfold Cert.Spec.proj Cert.Spec.hidden
  simp only [h0, h1, h2, h3, h4]

variable (V : (c : Dev nD) → (b : Ref sig .tc) → Buf (Elt Ideal) ((c : Thread nD τ).loc b))

/-! ## Where each window's block lies in its array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the batch window and the output window are at sentence `t`, the four weight and bias
windows never move. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem lt16 (t : Fin cfg0.N) : t.val < 16 :=
  Nat.lt_of_lt_of_eq t.isLt N_0

/-- The batch window's block at point `t` is sentence `t` of the batch. -/
theorem iblk0_0_apply (c : Dev nD) (t : Fin cfg0.N) (l d : Fin 1024) :
    (iblk0 V c 0 t : Vec Ideal S1x1024x1024 .f32) (ix3 0 l d)
      = (V c main_arg0 : Cert.Spec.I16x1024x1024 → EReal) (ix3 ⟨t.val, lt16 t⟩ l d) := by
  obtain ⟨e0, e1, e2, -⟩ := idx_facts0 t
  show (V c main_arg0 : Cert.Spec.I16x1024x1024 → EReal) (((cfg0.win 0).blk t).view.emb (ix3 0 l d)) = _
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * l.val = l.val; omega
  | ⟨2, _⟩ => show win0_0.index t (2 : Fin 3) * 1024 + 1 * d.val = d.val; omega

/-- The first weight window's block is the whole first weight matrix, at every point. -/
theorem iblk0_1_apply (c : Dev nD) (t : Fin cfg0.N) (d j : Fin 1024) :
    (iblk0 V c 1 t : Vec Ideal S1024x1024 .bf16) (ix2 d j) = (V c main_v0 : Cert.Spec.I1024x1024 → EReal) (ix2 d j) := by
  obtain ⟨-, -, -, e0, e1, -⟩ := idx_facts0 t
  show (V c main_v0 : Cert.Spec.I1024x1024 → EReal) (((cfg0.win 1).blk t).view.emb (ix2 d j)) = _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * j.val = j.val; omega

/-- The first bias window's block is the whole first bias row. -/
theorem iblk0_2_apply (c : Dev nD) (t : Fin cfg0.N) (j : Fin 1024) :
    (iblk0 V c 2 t : Vec Ideal S1x1024 .f32) (ix2 0 j) = (V c main_v2 : (⟨2, ![1, 1024]⟩ : Shape).Idx → EReal) (ix2 0 j) := by
  obtain ⟨-, -, -, -, -, e0, e1, -⟩ := idx_facts0 t
  show (V c main_v2 : (⟨2, ![1, 1024]⟩ : Shape).Idx → EReal) (((cfg0.win 2).blk t).view.emb (ix2 0 j)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

/-- The second weight window's block is the whole second weight matrix. -/
theorem iblk0_3_apply (c : Dev nD) (t : Fin cfg0.N) (j : Fin 1024) (r : Fin 128) :
    (iblk0 V c 3 t : Vec Ideal S1024x128 .bf16) (ix2 j r) = (V c main_v1 : Cert.Spec.I1024x128 → EReal) (ix2 j r) := by
  obtain ⟨-, -, -, -, -, -, -, e0, e1, -⟩ := idx_facts0 t
  show (V c main_v1 : Cert.Spec.I1024x128 → EReal) (((cfg0.win 3).blk t).view.emb (ix2 j r)) = _
  refine congrArg _ (funext fun a => Fin.ext ?_)
  match a with
  | ⟨0, _⟩ => show win0_3.index t (0 : Fin 2) * 1024 + 1 * j.val = j.val; omega
  | ⟨1, _⟩ => show win0_3.index t (1 : Fin 2) * 128 + 1 * r.val = r.val; omega

/-- The second bias window's block is the whole second bias row. -/
theorem iblk0_4_apply (c : Dev nD) (t : Fin cfg0.N) (r : Fin 128) :
    (iblk0 V c 4 t : Vec Ideal S1x128 .f32) (ix2 0 r) = (V c main_v3 : (⟨2, ![1, 128]⟩ : Shape).Idx → EReal) (ix2 0 r) := by
  obtain ⟨-, -, -, -, -, -, -, -, -, e0, e1, -⟩ := idx_facts0 t
  show (V c main_v3 : (⟨2, ![1, 128]⟩ : Shape).Idx → EReal) (((cfg0.win 4).blk t).view.emb (ix2 0 r)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * r.val = r.val; omega

/-- The output window's block at point `t` lies at sentence `t` of the output array. -/
theorem oblk0_emb (t : Fin cfg0.N) (l : Fin 1024) (r : Fin 128) :
    (((cfg0.win 5).blk t).view.emb (ix3 0 l r) : Cert.Spec.I16x1024x128) = ix3 ⟨t.val, lt16 t⟩ l r := by
  obtain ⟨-, -, -, -, -, -, -, -, -, -, -, e0, e1, e2⟩ := idx_facts0 t
  refine funext fun a => Fin.ext ?_
  match a with
  | ⟨0, _⟩ => show win0_5.index t (0 : Fin 3) * 1 + 1 * 0 = t.val; omega
  | ⟨1, _⟩ => show win0_5.index t (1 : Fin 3) * 1024 + 1 * l.val = l.val; omega
  | ⟨2, _⟩ => show win0_5.index t (2 : Fin 3) * 128 + 1 * r.val = r.val; omega

/-! ## What a point writes back -/

/-- Point `t` writes back block `t` of the projected array of the arrays the region was entered with. -/
theorem flushed_eq (c : Dev nD) (t : Fin cfg0.N) :
    (dat0 (F := Ideal) V c).flushed 5 t
      = ((cfg0.win 5).blk t).view.read (Elt Ideal)
          (Cert.Spec.projArr (V c main_arg0) (V c main_v0) (fun j => V c main_v2 (ix2 0 j)) (V c main_v1) (fun r => V c main_v3 (ix2 0 r))) := by
  show (cfg0.win 5).cut (grid0.coords t) ((dat0 V c).after 5 t) = _
  rw [after0_5]
  unfold out0_5
  rw [View.canon_unit_zero hz3]
  simp only [View.ld_unit_zero (S := S1x1024x1024) hz3, View.ld_unit_zero (S := S1024x1024) hz2,
    View.ld_unit_zero (S := S1x1024) hz2, View.ld_unit_zero (S := S1024x128) hz2, View.ld_unit_zero (S := S1x128) hz2]
  refine funext fun (y : S1x1024x128.Idx) => ?_
  obtain ⟨u, l, r, rfl⟩ : ∃ (u : Fin 1) (l : Fin 1024) (r : Fin 128), y = ix3 u l r := ⟨y 0, y 1, y 2, eq_ix3 y⟩
  obtain rfl : u = 0 := Subsingleton.elim _ _
  show k0_pay1 (F := Ideal) (iblk0 V c 0 t) (iblk0 V c 1 t) (iblk0 V c 2 t) (iblk0 V c 3 t) (iblk0 V c 4 t) (ix3 0 l r)
    = Cert.Spec.projArr (V c main_arg0) (V c main_v0) (fun j => V c main_v2 (ix2 0 j)) (V c main_v1) (fun r => V c main_v3 (ix2 0 r))
        (((cfg0.win 5).blk t).view.emb (ix3 0 l r))
  rw [oblk0_emb t l r]
  exact block_value (V c main_arg0) (V c main_v0) (V c main_v2) (V c main_v1) (V c main_v3) ⟨t.val, lt16 t⟩ _ _ _ _ _
    (iblk0_0_apply V c t) (iblk0_1_apply V c t) (iblk0_2_apply V c t) (iblk0_3_apply V c t) (iblk0_4_apply V c t) l r

/-! ## The blocks tile the output array -/

/-- An index of the output array is in point `t`'s block iff each coordinate is in the block's range on its axis. -/
theorem mem_blk5 (t : Fin cfg0.N) (i : S16x1024x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v4).slice (win0_5.rect t)).set ↔ _
  rw [View.set_slice_whole, Rect.mem_set_unit]
  exact Iff.rfl

/-- Every index of the output array is in the block of the point of its sentence. -/
theorem cover5 (i : S16x1024x128.Idx) :
    ∃ t : Fin cfg0.N, (cfg0.win 5).flush t = true ∧ i ∈ ((cfg0.win 5).blk t).view.set := by
  have h0 : (i 0).val < 16 := (i 0).isLt
  have h1 : (i 1).val < 1024 := (i 1).isLt
  have h2 : (i 2).val < 128 := (i 2).isLt
  obtain ⟨-, -, -, -, -, -, -, -, -, -, -, e0, e1, e2⟩ := idx_facts0 ⟨(i 0).val, Nat.lt_of_lt_of_eq h0 N_0.symm⟩
  have e0' : win0_5.index ⟨(i 0).val, Nat.lt_of_lt_of_eq h0 N_0.symm⟩ (0 : Fin 3) = (i 0).val := e0
  refine ⟨⟨(i 0).val, Nat.lt_of_lt_of_eq h0 N_0.symm⟩, flush0_5 _, ?_⟩
  rw [mem_blk5]
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    omega
  | ⟨1, _⟩ =>
    show win0_5.index ⟨(i 0).val, _⟩ (1 : Fin 3) * 1024 ≤ (i 1).val ∧ (i 1).val < win0_5.index ⟨(i 0).val, _⟩ (1 : Fin 3) * 1024 + 1024
    omega
  | ⟨2, _⟩ =>
    show win0_5.index ⟨(i 0).val, _⟩ (2 : Fin 3) * 128 ≤ (i 2).val ∧ (i 2).val < win0_5.index ⟨(i 0).val, _⟩ (2 : Fin 3) * 128 + 128
    omega

end Final0

/-! ## The output array after the region -/

variable (V : (c : Dev nD) → (b : Ref sig .tc) → Buf (Elt Ideal) ((c : Thread nD τ).loc b))

theorem final0 (c : Dev nD) :
    (dat0 (F := Ideal) V c).arrAt 5 cfg0.N
      = Cert.Spec.projArr (V c main_arg0) (V c main_v0) (fun j => V c main_v2 (ix2 0 j)) (V c main_v1) (fun r => V c main_v3 (ix2 0 r)) :=
  (dat0 V c).arrAt_eq_of_cover 5 _ (fun t _ => Final0.flushed_eq V c t) Final0.cover5

end Cert.KernelIdeal.Hand

end
-- ==== Proof.Pay1.lean ====
/-
  The distance kernel's stored block, read at an index: entry `(p, q)` is the clamped squared distance between row `p`
  of the row tile and row `q` of the sentence.
-/
import proofs.«111988_j34505767256461_1_alg».proof.Proof.Gen.KernelIdeal.Skeleton
import proofs.«111988_j34505767256461_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The keepdims layout forms: a column `[a] → [a, 1]` and its spread `[a, 1] → [a, b]` -/

/-- An `[a]` array cast to the column `[a, 1]` reads, at `(i, u)`, the operand at `i`, whatever the unit coordinate `u`:
    both positions are `i` in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along the lanes of an `[n, 128]` array -/

/-- The lane sum of an `[n, 128]` array, read at row `p`: the sum of that row's 128 entries (the accumulator is the zero
    word, which the reduction leaves out). -/
theorem laneSum_apply {n : ℕ} (src : FVec Ideal ⟨2, ![n, 128]⟩ .f32)
    (h : (⟨2, ![n, 128]⟩ : Shape).Reduces [1] ⟨1, ![n]⟩) (hφ : FKind.Formats .f32)
    (hacc : (0x00000000#32 : BitVec 32) = 0x00000000#32) (p : Fin n) :
    multiReduction (F := Ideal) .add [1] ⟨1, ![n]⟩ src 0x00000000#32 h hφ hacc (ix1 p) = ∑ r : Fin 128, src (ix2 p r) := by
  refine (Ideal.multiReduction_add_single src 0x00000000#32 h hφ hacc (ix1 p)).trans ?_
  refine Finset.sum_congr rfl fun r _ => ?_
  exact congrArg src (funext fun a => Fin.ext (by match a with | ⟨0, _⟩ => rfl | ⟨1, _⟩ => rfl))

/-! ## The product with the transpose: both operands contracted along their lanes -/

theorem lhs_dist_0 (i : S512x1024.Idx) (k : dot_S512x128_S1024x128_S512x1024_1_1_0_0_n_n.contr.Idx) :
    (dot_S512x128_S1024x128_S512x1024_1_1_0_0_n_n.lhsIdx i k 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
theorem lhs_dist_1 (i : S512x1024.Idx) (k : dot_S512x128_S1024x128_S512x1024_1_1_0_0_n_n.contr.Idx) :
    (dot_S512x128_S1024x128_S512x1024_1_1_0_0_n_n.lhsIdx i k 1).val = (k ⟨0, by decide⟩).val :=
  dot_S512x128_S1024x128_S512x1024_1_1_0_0_n_n.lhsIdx_val_of_single rfl i k
theorem rhs_dist_0 (i : S512x1024.Idx) (k : dot_S512x128_S1024x128_S512x1024_1_1_0_0_n_n.contr.Idx) :
    (dot_S512x128_S1024x128_S512x1024_1_1_0_0_n_n.rhsIdx i k 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl
theorem rhs_dist_1 (i : S512x1024.Idx) (k : dot_S512x128_S1024x128_S512x1024_1_1_0_0_n_n.contr.Idx) :
    (dot_S512x128_S1024x128_S512x1024_1_1_0_0_n_n.rhsIdx i k 1).val = (k ⟨0, by decide⟩).val :=
  dot_S512x128_S1024x128_S512x1024_1_1_0_0_n_n.rhsIdx_val_of_single rfl i k

/-- The matrix product onto the zero accumulator, read at `(p, q)`: the inner product of row `p` of the left operand
    with row `q` of the right one. -/
theorem matmul_dist_apply (x : FVec Ideal S512x128 .bf16) (y : FVec Ideal S1024x128 .bf16) (p : Fin 512) (q : Fin 1024) :
    matmul dot_S512x128_S1024x128_S512x1024_1_1_0_0_n_n none x y (constant (F := Ideal) S512x1024 .f32 0x00000000#32) (ix2 p q)
      = ∑ r : Fin 128, x (ix2 p r) * y (ix2 q r) := by
  simp only [matmul]
  rw [Ideal.matmul_constant_zero_apply, ← Equiv.sum_comp (contrEquiv1 dot_S512x128_S1024x128_S512x1024_1_1_0_0_n_n 128 rfl rfl).symm]
  refine Finset.sum_congr rfl fun r _ => ?_
  have hr := contrEquiv1_symm_val dot_S512x128_S1024x128_S512x1024_1_1_0_0_n_n 128 rfl rfl r
  have el : dot_S512x128_S1024x128_S512x1024_1_1_0_0_n_n.lhsIdx (ix2 p q) ((contrEquiv1 dot_S512x128_S1024x128_S512x1024_1_1_0_0_n_n 128 rfl rfl).symm r) = ix2 p r := funext fun a => Fin.ext (by
    match a with
    | ⟨0, _⟩ => exact lhs_dist_0 _ _
    | ⟨1, _⟩ => exact (lhs_dist_1 _ _).trans hr)
  have er : dot_S512x128_S1024x128_S512x1024_1_1_0_0_n_n.rhsIdx (ix2 p q) ((contrEquiv1 dot_S512x128_S1024x128_S512x1024_1_1_0_0_n_n 128 rfl rfl).symm r) = ix2 q r := funext fun a => Fin.ext (by
    match a with
    | ⟨0, _⟩ => exact rhs_dist_0 _ _
    | ⟨1, _⟩ => exact (rhs_dist_1 _ _).trans hr)
  rw [el, er]

/-! ## The stored block at an index -/

theorem pay1_apply (ti : Vec Ideal S1x512x128 .f32) (tj : Vec Ideal S1x1024x128 .f32) (p : Fin 512) (q : Fin 1024) :
    k1_pay1 (F := Ideal) ti tj (ix3 0 p q)
      = max (((∑ r : Fin 128, ti (ix3 0 p r) * ti (ix3 0 p r)) + (∑ r : Fin 128, tj (ix3 0 q r) * tj (ix3 0 q r)))
          - Cert.Spec.two * ∑ r : Fin 128, ti (ix3 0 p r) * tj (ix3 0 q r)) 0 := by
  -- the two tiles with their leading unit axis dropped
  have hi : ∀ r : Fin 128, shapeCast S512x128 ti shapeCasts_S1x512x128_S512x128 (ix2 p r) = ti (ix3 0 p r) :=
    fun r => shapeCast_1ab_ab_apply ti shapeCasts_S1x512x128_S512x128 p r
  have hj : ∀ r : Fin 128, shapeCast S1024x128 tj shapeCasts_S1x1024x128_S1024x128 (ix2 q r) = tj (ix3 0 q r) :=
    fun r => shapeCast_1ab_ab_apply tj shapeCasts_S1x1024x128_S1024x128 q r
  unfold k1_pay1
  refine (shapeCast_ab_1ab_apply _ shapeCasts_S512x1024_S1x512x1024 0 p q).trans ?_
  refine (maximumf_apply _ _ _).trans ?_
  refine congrArg₂ max ?_ Ideal.ofBits_zero_f32
  refine (subf_apply _ _ _).trans ?_
  refine congrArg₂ (· - ·) ?_ ?_
  · refine (addf_apply _ _ _).trans ?_
    refine congrArg₂ (· + ·) ?_ ?_
    · -- the row tile's squared norms: a lane sum, made a column and spread along the rows
      refine (broadcastTo_a1_ab_apply _ broadcasts_S512x1_S512x1024 p q).trans ?_
      refine (shapeCast_a_a1_apply _ shapeCasts_S512_S512x1 p 0).trans ?_
      refine (laneSum_apply _ reduces_S512x128_S512 (.inl rfl) rfl p).trans ?_
      exact Finset.sum_congr rfl fun r _ => (mulf_apply _ _ _).trans (by rw [hi r])
    · -- the sentence's squared norms: a lane sum, made a column, transposed to a row and spread down the columns
      refine (broadcastTo_1b_ab_apply _ broadcasts_S1x1024_S512x1024 p q).trans ?_
      refine (transpose_ix2_apply _ transposes_S1024x1_p1_0_S1x1024 0 q).trans ?_
      refine (shapeCast_a_a1_apply _ shapeCasts_S1024_S1024x1 q 0).trans ?_
      refine (laneSum_apply _ reduces_S1024x128_S1024 (.inl rfl) rfl q).trans ?_
      exact Finset.sum_congr rfl fun r _ => (mulf_apply _ _ _).trans (by rw [hj r])
  · -- twice the inner products: the literal is kept as its word, the format change of the operands is the identity
    refine (mulf_apply _ _ _).trans ?_
    refine congrArg₂ (· * ·) rfl ?_
    refine (matmul_dist_apply _ _ p q).trans ?_
    exact Finset.sum_congr rfl fun r _ => by rw [truncf_apply, truncf_apply, hi r, hj r]

end Cert.KernelIdeal.Pay

end
-- ==== Proof.Final1.lean ====
/-
  The distances as ONE array: what the distance kernel's region leaves in its output array is the table of clamped squared
  distances between the rows of the array it read. Each grid point writes back a tile of 512 rows of one sentence's
  table, the tiles cover the array, and the block a point writes is its block of one whole-array function.
-/
import proofs.«111988_j34505767256461_1_alg».proof.Proof.Body1
import proofs.«111988_j34505767256461_1_alg».proof.Proof.Pay1
import proofs.«111988_j34505767256461_1_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The grid's index maps, decided over its 32 points -/

theorem hzero1 : (![0, 0, 0] : Fin 3 → Nat) = fun _ => 0 := funext fun a => by fin_cases a <;> rfl

/-- Point `t` is `(b, i) = (t / 2, t % 2)`: the tile window and the output window sit at block `(b, i, 0)`, the sentence
    window at block `(b, 0, 0)`. -/
theorem idx_facts1 : ∀ t : Fin cfg1.N, win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = t.val % 2 ∧ win1_2.index t (2 : Fin 3) = 0 :=
  (by decide +kernel : ∀ t : Fin grid1.N, _)

/-! ## The two input blocks as rows of the array they are cut from -/

/-- Row `p` of the tile at point `t` is row `(t % 2) · 512 + p` of sentence `t / 2`. -/
theorem tile1_apply (c : Dev nD) (t : Fin cfg1.N) (p : Fin 512) (r : Fin 128) (b : Fin 16) (l : Fin 1024)
    (hb : b.val = t.val / 2) (hl : l.val = t.val % 2 * 512 + p.val) :
    (iblk1 (F := Ideal) V c 0 t : Vec Ideal S1x512x128 .f32) (ix3 0 p r) = (V c main_v4 : S16x1024x128.Idx → EReal) (ix3 b l r) := by
  obtain ⟨e0, e1, e2, -⟩ := idx_facts1 t
  unfold iblk1
  rw [View.read_apply]
  show (V c main_v4 : S16x1024x128.Idx → EReal) (((cfg1.win 0).blk t).view.emb (ix3 0 p r)) = _
  refine congrArg (V c main_v4 : S16x1024x128.Idx → EReal) (funext fun a => Fin.ext ?_)
  match a with
  | ⟨0, _⟩ => show win1_0.index t (0 : Fin 3) * 1 + 1 * 0 = b.val; omega
  | ⟨1, _⟩ => show win1_0.index t (1 : Fin 3) * 512 + 1 * p.val = l.val; omega
  | ⟨2, _⟩ => show win1_0.index t (2 : Fin 3) * 128 + 1 * r.val = r.val; omega

/-- Row `q` of the sentence block at point `t` is row `q` of sentence `t / 2`. -/
theorem sentence1_apply (c : Dev nD) (t : Fin cfg1.N) (q : Fin 1024) (r : Fin 128) (b : Fin 16) (hb : b.val = t.val / 2) :
    (iblk1 (F := Ideal) V c 1 t : Vec Ideal S1x1024x128 .f32) (ix3 0 q r) = (V c main_v4 : S16x1024x128.Idx → EReal) (ix3 b q r) := by
  obtain ⟨-, -, -, e3, e4, e5, -⟩ := idx_facts1 t
  unfold iblk1
  rw [View.read_apply]
  show (V c main_v4 : S16x1024x128.Idx → EReal) (((cfg1.win 1).blk t).view.emb (ix3 0 q r)) = _
  refine congrArg (V c main_v4 : S16x1024x128.Idx → EReal) (funext fun a => Fin.ext ?_)
  match a with
  | ⟨0, _⟩ => show win1_1.index t (0 : Fin 3) * 1 + 1 * 0 = b.val; omega
  | ⟨1, _⟩ => show win1_1.index t (1 : Fin 3) * 1024 + 1 * q.val = q.val; omega
  | ⟨2, _⟩ => show win1_1.index t (2 : Fin 3) * 128 + 1 * r.val = r.val; omega

/-! ## What a point writes back -/

/-- The body's stored block at point `t`, entry `(p, q)`: the clamped squared distance between rows `(t % 2) · 512 + p` and
    `q` of sentence `t / 2`. -/
theorem point1_apply (c : Dev nD) (t : Fin cfg1.N) (u : Fin 1) (p : Fin 512) (q : Fin 1024) (b : Fin 16) (l : Fin 1024)
    (hb : b.val = t.val / 2) (hl : l.val = t.val % 2 * 512 + p.val) :
    k1_pay1 (F := Ideal) (iblk1 V c 0 t) (iblk1 V c 1 t) (ix3 u p q) = Cert.Spec.distArr (V c main_v4) (ix3 b l q) := by
  obtain rfl : u = 0 := Subsingleton.elim _ _
  rw [Cert.Spec.distArr_apply]
  unfold Cert.Spec.dist Cert.Spec.sqn Cert.Spec.inner
  refine (Cert.KernelIdeal.Pay.pay1_apply (iblk1 V c 0 t) (iblk1 V c 1 t) p q).trans ?_
  simp only [tile1_apply V c t p _ b l hb hl, sentence1_apply V c t q _ b hb]

/-- WHAT POINT `t` WRITES BACK is its block of the table of distances of the array the region read. -/
theorem flushed1_eq (c : Dev nD) (t : Fin cfg1.N) :
    (dat1 (F := Ideal) V c).flushed 2 t = ((cfg1.win 2).blk t).view.read (Elt Ideal) (Cert.Spec.distArr (V c main_v4)) := by
  show (cfg1.win 2).cut (grid1.coords t) ((dat1 V c).after 2 t) = _
  rw [after1_2]
  unfold out1_2
  rw [View.canon_unit_zero hzero1]
  simp only [View.ld_unit_zero (S := S1x512x128) hzero1, View.ld_unit_zero (S := S1x1024x128) hzero1]
  obtain ⟨-, -, -, -, -, -, e6, e7, e8⟩ := idx_facts1 t
  have hN : cfg1.N = 32 := N_1
  have ht : t.val < 32 := hN ▸ t.isLt
  funext y
  obtain ⟨u, p, q, rfl⟩ : ∃ (u : Fin 1) (p : Fin 512) (q : Fin 1024), y = ix3 u p q := ⟨y 0, y 1, y 2, eq_ix3 y⟩
  refine (point1_apply V c t u p q ⟨t.val / 2, by omega⟩ ⟨t.val % 2 * 512 + p.val, by omega⟩ rfl rfl).trans ?_
  rw [View.read_apply]
  refine congrArg (Cert.Spec.distArr (V c main_v4)) (funext fun a => Fin.ext ?_)
  match a with
  | ⟨0, _⟩ => show t.val / 2 = win1_2.index t (0 : Fin 3) * 1 + 1 * u.val; omega
  | ⟨1, _⟩ => show t.val % 2 * 512 + p.val = win1_2.index t (1 : Fin 3) * 512 + 1 * p.val; omega
  | ⟨2, _⟩ => show q.val = win1_2.index t (2 : Fin 3) * 1024 + 1 * q.val; omega

/-! ## The tiles cover the array -/

/-- An index of the array is in point `t`'s block iff each coordinate is in the block's range on its axis. -/
theorem mem_blk1 (t : Fin cfg1.N) (i : S16x1024x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v5).slice (win1_2.rect t)).set ↔ _
  rw [View.set_slice_whole, Rect.mem_set_unit]
  exact Iff.rfl

/-- Entry `(b, l, j)` is written back by point `2 b + l / 512`. -/
theorem cover1 (i : S16x1024x1024.Idx) : ∃ t : Fin cfg1.N, (cfg1.win 2).flush t = true ∧ i ∈ ((cfg1.win 2).blk t).view.set := by
  have h0 : (i 0).val < 16 := (i 0).isLt
  have h1 : (i 1).val < 1024 := (i 1).isLt
  have h2 : (i 2).val < 1024 := (i 2).isLt
  have hN : cfg1.N = 32 := N_1
  have hlt : (i 0).val * 2 + (i 1).val / 512 < cfg1.N := by rw [hN]; omega
  obtain ⟨-, -, -, -, -, -, e6, e7, e8⟩ := idx_facts1 ⟨(i 0).val * 2 + (i 1).val / 512, hlt⟩
  refine ⟨⟨(i 0).val * 2 + (i 1).val / 512, hlt⟩, flush1_2 _, ?_⟩
  rw [mem_blk1]
  intro a
  match a with
  | ⟨0, _⟩ => show win1_2.index ⟨(i 0).val * 2 + (i 1).val / 512, hlt⟩ (0 : Fin 3) * 1 ≤ (i 0).val ∧ (i 0).val < win1_2.index ⟨(i 0).val * 2 + (i 1).val / 512, hlt⟩ (0 : Fin 3) * 1 + 1; rw [e6]; show ((i 0).val * 2 + (i 1).val / 512) / 2 * 1 ≤ (i 0).val ∧ (i 0).val < ((i 0).val * 2 + (i 1).val / 512) / 2 * 1 + 1; omega
  | ⟨1, _⟩ => show win1_2.index ⟨(i 0).val * 2 + (i 1).val / 512, hlt⟩ (1 : Fin 3) * 512 ≤ (i 1).val ∧ (i 1).val < win1_2.index ⟨(i 0).val * 2 + (i 1).val / 512, hlt⟩ (1 : Fin 3) * 512 + 512; rw [e7]; show ((i 0).val * 2 + (i 1).val / 512) % 2 * 512 ≤ (i 1).val ∧ (i 1).val < ((i 0).val * 2 + (i 1).val / 512) % 2 * 512 + 512; omega
  | ⟨2, _⟩ => show win1_2.index ⟨(i 0).val * 2 + (i 1).val / 512, hlt⟩ (2 : Fin 3) * 1024 ≤ (i 2).val ∧ (i 2).val < win1_2.index ⟨(i 0).val * 2 + (i 1).val / 512, hlt⟩ (2 : Fin 3) * 1024 + 1024; rw [e8]; omega

/-! ## The array after the run -/

theorem final1 (c : Dev nD) :
    (dat1 (F := Ideal) V c).arrAt 2 cfg1.N = Cert.Spec.distArr (V c main_v4) := by
  exact (dat1 V c).arrAt_eq_of_cover 2 _ (fun t _ => flushed1_eq V c t) cover1

end Cert.KernelIdeal.Hand

end
-- ==== Proof.Host0.lean ====
/-
  What the host operations before the first kernel leave: the two weight matrices in the narrower format — at the ideal
  instance a change of format is the identity, so the same numbers — and the two bias vectors laid out as one-row matrices.
-/
import proofs.«111988_j34505767256461_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ)

/-- The first weight matrix after its change of format holds the same numbers: at the ideal instance narrowing is the identity. -/
theorem after_v0 (c : Dev nD) (i : S1024x1024.Idx) :
    StableHlo.after (hostOps0 (F := Ideal)) (fun b => m (c, b)) (Proc.devRef .tc main_v0) i = m ((c : Thread nD τ).loc main_arg1) i := by
  simp only [hostOps0]
  after_results
  rfl

/-- The second weight matrix after its change of format holds the same numbers. -/
theorem after_v1 (c : Dev nD) (i : S1024x128.Idx) :
    StableHlo.after (hostOps0 (F := Ideal)) (fun b => m (c, b)) (Proc.devRef .tc main_v1) i = m ((c : Thread nD τ).loc main_arg3) i := by
  simp only [hostOps0]
  after_results
  rfl

/-- The first bias laid out as a one-row matrix: its entry `(0, j)` is entry `j` of the vector (row-major position `0 · 1024 + j = j`). -/
theorem after_v2 (c : Dev nD) (j : Fin 1024) :
    StableHlo.after (hostOps0 (F := Ideal)) (fun b => m (c, b)) (Proc.devRef .tc main_v2) (ix2 0 j) = m ((c : Thread nD τ).loc main_arg2) (ix1 j) := by
  simp only [hostOps0]
  after_results
  exact shapeCast_a_1a_apply (m ((c : Thread nD τ).loc main_arg2)) shapeCasts_S1024_S1x1024 0 j

/-- The second bias laid out as a one-row matrix: its entry `(0, r)` is entry `r` of the vector. -/
theorem after_v3 (c : Dev nD) (r : Fin 128) :
    StableHlo.after (hostOps0 (F := Ideal)) (fun b => m (c, b)) (Proc.devRef .tc main_v3) (ix2 0 r) = m ((c : Thread nD τ).loc main_arg4) (ix1 r) := by
  simp only [hostOps0]
  after_results
  exact shapeCast_a_1a_apply (m ((c : Thread nD τ).loc main_arg4)) shapeCasts_S128_S1x128 0 r

end Cert.KernelIdeal.Hand

end
-- ==== Proof.RefValue.lean ====
/-
  The reference program's result, read index by index at the ideal instance: it is the specification's function of the
  five arguments.

  The program has two halves. Its first twelve operations are two dense layers with a clamp at zero: read at the index
  (b, l, r) they are the specification's projected row entry t[b, l, r]. The remaining operations take the array of
  projected rows to the table of clamped squared distances: read at (b, p, q) they are
      max ((|t_p|² + |t_q|²) − 2 · ⟨t_p, t_q⟩) 0,
  in exactly the specification's grouping, so the two sides agree term by term. The only arithmetic fact used is that
  the zero a sum starts from disappears on the left of the sum (0 + s = s), which holds at the infinities too.
-/
import proofs.«111988_j34505767256461_1_alg».proof.Proof.Gen.ReferenceIdeal.Read
import proofs.«111988_j34505767256461_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Where each operation reads its operands, at explicit coordinates -/

/-- The first layer's product reads row `(b, l)` of the input along the contracted axis. -/
theorem lidx_v0 (b : Fin 16) (l : Fin 1024) (j k : Fin 1024) : lidx_main_v0 (ix3 b l j) k = ix3 b l k :=
  funext fun a => Fin.ext (by match a with | ⟨0, _⟩ => rfl | ⟨1, _⟩ => rfl | ⟨2, _⟩ => rfl)

/-- The first layer's product reads column `j` of the first weight matrix. -/
theorem ridx_v0 (b : Fin 16) (l : Fin 1024) (j k : Fin 1024) : ridx_main_v0 (ix3 b l j) k = ix2 k j :=
  funext fun a => Fin.ext (by match a with | ⟨0, _⟩ => rfl | ⟨1, _⟩ => rfl)

/-- The first bias, broadcast over rows, is read at the unit's own position. -/
theorem idx_v1_v2 (b : Fin 16) (l : Fin 1024) (j : Fin 1024) : idx_main_v1 (idx_main_v2 (ix3 b l j)) = ix1 j :=
  funext fun a => Fin.ext (by match a with | ⟨0, _⟩ => rfl)

/-- The second layer's product reads row `(b, l)` of the hidden array along the contracted axis. -/
theorem lidx_v6 (b : Fin 16) (l : Fin 1024) (r : Fin 128) (k : Fin 1024) : lidx_main_v6 (ix3 b l r) k = ix3 b l k :=
  funext fun a => Fin.ext (by match a with | ⟨0, _⟩ => rfl | ⟨1, _⟩ => rfl | ⟨2, _⟩ => rfl)

/-- The second layer's product reads column `r` of the second weight matrix. -/
theorem ridx_v6 (b : Fin 16) (l : Fin 1024) (r : Fin 128) (k : Fin 1024) : ridx_main_v6 (ix3 b l r) k = ix2 k r :=
  funext fun a => Fin.ext (by match a with | ⟨0, _⟩ => rfl | ⟨1, _⟩ => rfl)

/-- The second bias, broadcast over rows, is read at the unit's own position. -/
theorem idx_v7_v8 (b : Fin 16) (l : Fin 1024) (r : Fin 128) : idx_main_v7 (idx_main_v8 (ix3 b l r)) = ix1 r :=
  funext fun a => Fin.ext (by match a with | ⟨0, _⟩ => rfl)

/-- The squared norm broadcast along columns is the norm of row `p`. -/
theorem idx_v13_row (b : Fin 16) (p q : Fin 1024) (k : Fin 128) :
    idx_main_v13 (idx_main_v15 (idx_main_v17 (ix3 b p q))) k = ix3 b p k :=
  funext fun a => Fin.ext (by match a with | ⟨0, _⟩ => rfl | ⟨1, _⟩ => rfl | ⟨2, _⟩ => rfl)

/-- The squared norm broadcast along rows is the norm of row `q`. -/
theorem idx_v13_col (b : Fin 16) (p q : Fin 1024) (k : Fin 128) :
    idx_main_v13 (idx_main_v16 (idx_main_v18 (ix3 b p q))) k = ix3 b q k :=
  funext fun a => Fin.ext (by match a with | ⟨0, _⟩ => rfl | ⟨1, _⟩ => rfl | ⟨2, _⟩ => rfl)

/-- The batched product's left factor is row `p` of sentence `b`. -/
theorem lidx_v14 (b : Fin 16) (p q : Fin 1024) (k : Fin 128) : lidx_main_v14 (ix3 b p q) k = ix3 b p k :=
  funext fun a => Fin.ext (by match a with | ⟨0, _⟩ => rfl | ⟨1, _⟩ => rfl | ⟨2, _⟩ => rfl)

/-- The batched product's right factor is row `q` of sentence `b`. -/
theorem ridx_v14 (b : Fin 16) (p q : Fin 1024) (k : Fin 128) : ridx_main_v14 (ix3 b p q) k = ix3 b q k :=
  funext fun a => Fin.ext (by match a with | ⟨0, _⟩ => rfl | ⟨1, _⟩ => rfl | ⟨2, _⟩ => rfl)

/-! ## The two dense layers -/

/-- The first layer's clamped output at `(b, l, j)` is the specification's hidden unit. -/
theorem hidden_eq (x0 : (⟨S16x1024x1024, .f32⟩ : BufTy).Contents (Elt Ideal)) (x1 : (⟨S1024x1024, .f32⟩ : BufTy).Contents (Elt Ideal))
    (x2 : (⟨S1024, .f32⟩ : BufTy).Contents (Elt Ideal)) (b : Fin 16) (l : Fin 1024) (j : Fin 1024) :
    val_main_v5 (F := Ideal) x0 x1 x2 (ix3 b l j) = Cert.Spec.hidden x0 x1 (fun j => x2 (ix1 j)) b l j := by
  rw [val_main_v5_apply, val_main_v3_apply, val_main_v0_apply, val_main_v2_apply, val_main_v1_apply, val_main_v4_apply,
    val_main_cst_apply]
  simp only [lidx_v0, ridx_v0, idx_v1_v2, Ideal.maximumf_def, Ideal.addf_def, Ideal.ofBits_def, Ideal.ofBits_zero_f32]
  rfl

/-- The second layer's clamped output is the specification's array of projected rows. -/
theorem proj_eq (x0 : (⟨S16x1024x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x128, .f32⟩ : BufTy).Contents (Elt Ideal))
    (x4 : (⟨S128, .f32⟩ : BufTy).Contents (Elt Ideal)) :
    val_main_v11 (F := Ideal) x0 x1 x2 x3 x4 = Cert.Spec.projArr x0 x1 (fun j => x2 (ix1 j)) x3 (fun r => x4 (ix1 r)) := by
  funext i
  obtain ⟨b, l, r, rfl⟩ : ∃ (b : Fin 16) (l : Fin 1024) (r : Fin 128), i = ix3 b l r := ⟨i 0, i 1, i 2, eq_ix3 i⟩
  rw [Cert.Spec.projArr_apply, val_main_v11_apply, val_main_v9_apply, val_main_v6_apply, val_main_v8_apply, val_main_v7_apply,
    val_main_v10_apply, val_main_cst_0_apply]
  simp only [lidx_v6, ridx_v6, idx_v7_v8, hidden_eq, Ideal.maximumf_def, Ideal.addf_def, Ideal.ofBits_def, Ideal.ofBits_zero_f32]
  rfl

/-! ## From the projected rows to the distances -/

/-- The operations after the second layer take the projected rows to the specification's table of distances. -/
theorem dist_eq (x0 : (⟨S16x1024x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x128, .f32⟩ : BufTy).Contents (Elt Ideal))
    (x4 : (⟨S128, .f32⟩ : BufTy).Contents (Elt Ideal)) :
    val_main_v24 (F := Ideal) x0 x1 x2 x3 x4 = Cert.Spec.distArr (val_main_v11 (F := Ideal) x0 x1 x2 x3 x4) := by
  funext i
  obtain ⟨b, p, q, rfl⟩ : ∃ (b : Fin 16) (p q : Fin 1024), i = ix3 b p q := ⟨i 0, i 1, i 2, eq_ix3 i⟩
  rw [Cert.Spec.distArr_apply, val_main_v24_apply, val_main_v22_apply, val_main_v19_apply, val_main_v17_apply, val_main_v15_apply,
    val_main_v13_apply, val_main_v18_apply, val_main_v16_apply, val_main_v13_apply, val_main_v21_apply, val_main_v20_apply,
    val_main_cst_2_apply, val_main_v14_apply, val_main_v23_apply, val_main_cst_3_apply, val_main_cst_1_apply]
  simp only [val_main_v12_apply, idx_v13_row, idx_v13_col, lidx_v14, ridx_v14, Ideal.maximumf_def, Ideal.addf_def, Ideal.subf_def,
    Ideal.mulf_def, Ideal.ofBits_def, Ideal.ofBits_zero_f32, zero_add]
  rfl

theorem ref_eq (x0 : (⟨S16x1024x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x128, .f32⟩ : BufTy).Contents (Elt Ideal))
    (x4 : (⟨S128, .f32⟩ : BufTy).Contents (Elt Ideal)) :
    val_main_v24 (F := Ideal) x0 x1 x2 x3 x4 = Cert.Spec.G x0 x1 (fun j => x2 (ix1 j)) x3 (fun r => x4 (ix1 r)) := by
  rw [dist_eq, proj_eq]
  rfl

end Cert.ReferenceIdeal.RefValue

end
-- ==== Proof.lean ====
/-
  The certificate: the kernel computes, for every sentence of the batch, the clamped squared distances between its
  projected rows, and so does the reference.

  FRAMES. The kernel's program is four host operations and two kernel regions; its run (Proof/Run.lean for the idealized
  program, the same text for the word-level one) is assembled from each region's body triple and proof data over the
  pipeline library's several-regions launch, and says in particular that every argument ends as launched. The reference
  is a line of host operations; its run is read back operation by operation.

  VALUES, at the ideal instance. The first region leaves in its output array the two dense layers applied to the batch
  (Proof/Final0.lean over Proof/Pay0.lean): the weights it reads are the arguments' (a change of float format is the
  identity on the extended reals) and the one-row biases are the argument vectors (Proof/Host0.lean). The second region
  reads that array through two windows and leaves the table of distances of its rows (Proof/Final1.lean over
  Proof/Pay1.lean). The reference's thirty operations compose to the same function of the five arguments
  (Proof/RefValue.lean): the same sums over the same index sets, grouped `(|t_i|² + |t_j|²) − 2⟨t_i, t_j⟩` on both sides,
  so no law that fails at an infinity is used and the finiteness of the inputs is never opened.

  The idealization rewrote no operation of the kernel, so what it preserves is stated as `True`.
-/
import proofs.«111988_j34505767256461_1_alg».proof.Defs
import proofs.«111988_j34505767256461_1_alg».proof.Proof.Gen.Kernel
import proofs.«111988_j34505767256461_1_alg».proof.Proof.Gen.KernelIdeal
import proofs.«111988_j34505767256461_1_alg».proof.Proof.Gen.ReferenceIdeal
import proofs.«111988_j34505767256461_1_alg».proof.Proof.Gen.Pre_finite_inputs
import proofs.«111988_j34505767256461_1_alg».proof.Proof.Gen.ReferenceIdeal.Run
import proofs.«111988_j34505767256461_1_alg».proof.Proof.Gen.ReferenceIdeal.Read
import proofs.«111988_j34505767256461_1_alg».proof.Proof.Run
import proofs.«111988_j34505767256461_1_alg».proof.Proof.KRun
import proofs.«111988_j34505767256461_1_alg».proof.Proof.Final0
import proofs.«111988_j34505767256461_1_alg».proof.Proof.Final1
import proofs.«111988_j34505767256461_1_alg».proof.Proof.Host0
import proofs.«111988_j34505767256461_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result as the specification's function of the arguments -/

section Value

open Cert.KernelIdeal Cert.KernelIdeal.Gen Cert.KernelIdeal.Hand

variable (m : (ℓ : Loc nD τ sig) → Buf (Elt Ideal) ℓ)

/-- The projected rows the second region is entered with: the two layers applied to the ARGUMENTS. -/
theorem rows_eq (c : Dev nD) :
    E2 (F := Ideal) m c main_v4
      = Cert.Spec.projArr (m ((c : Thread nD τ).loc main_arg0)) (m ((c : Thread nD τ).loc main_arg1))
          (fun j => m ((c : Thread nD τ).loc main_arg2) (ix1 j)) (m ((c : Thread nD τ).loc main_arg3))
          (fun r => m ((c : Thread nD τ).loc main_arg4) (ix1 r)) := by
  refine (W2_arr m c 5).trans ((final0 (E1 m) c).trans ?_)
  have e0 : E1 (F := Ideal) m c main_arg0 = m ((c : Thread nD τ).loc main_arg0) := W1_of m c main_arg0 (by decide)
  have e1 : (E1 (F := Ideal) m c main_v0 : S1024x1024.Idx → EReal) = m ((c : Thread nD τ).loc main_arg1) := funext fun i => after_v0 m c i
  have e3 : (E1 (F := Ideal) m c main_v1 : S1024x128.Idx → EReal) = m ((c : Thread nD τ).loc main_arg3) := funext fun i => after_v1 m c i
  have e2 : (fun j : Fin 1024 => E1 (F := Ideal) m c main_v2 (ix2 0 j)) = fun j => m ((c : Thread nD τ).loc main_arg2) (ix1 j) := funext fun j => after_v2 m c j
  have e4 : (fun r : Fin 128 => E1 (F := Ideal) m c main_v3 (ix2 0 r)) = fun r => m ((c : Thread nD τ).loc main_arg4) (ix1 r) := funext fun r => after_v3 m c r
  rw [e0, e1, e2, e3, e4]

/-- What the result buffer ends holding: the specification's function of the arguments. -/
theorem result_eq (c : Dev nD) :
    result (F := Ideal) m c
      = Cert.Spec.G (m ((c : Thread nD τ).loc main_arg0)) (m ((c : Thread nD τ).loc main_arg1))
          (fun j => m ((c : Thread nD τ).loc main_arg2) (ix1 j)) (m ((c : Thread nD τ).loc main_arg3))
          (fun r => m ((c : Thread nD τ).loc main_arg4) (ix1 r)) := by
  unfold Cert.Spec.G
  rw [← rows_eq m c]
  exact final1 (E2 m) c

end Value

/-! ## The claims -/

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the arguments, end with the result at the specification's function of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (fun j => m ((c.tc : Thread Cert.KernelIdeal.nD Cert.KernelIdeal.τ).loc Cert.KernelIdeal.main_arg2) (ix1 j)) (m ((c.tc : Thread Cert.KernelIdeal.nD Cert.KernelIdeal.τ).loc Cert.KernelIdeal.main_arg3))
      (fun r => m ((c.tc : Thread Cert.KernelIdeal.nD Cert.KernelIdeal.τ).loc Cert.KernelIdeal.main_arg4) (ix1 r)), ?_, ?_⟩
  · exact (θ_run Cert.KernelIdeal.defs _ _).mono (fun _ h c => ⟨(h c).1.trans (result_eq m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.ref_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
